-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 62
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S128x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v40) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .i1⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000, .f32⟩
  | .hbm, ⟨63, _⟩ => ⟨S800000, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_call2_v0 : Ref sig .tc := ⟨.hbm, 42, rfl⟩
abbrev main_call2_v1 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_c_14 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_15 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  What both programs compute from the aggregated node features: one dense layer, a row of the
  feature matrix against the rows of the weight matrix, plus the bias,

      out[r, j] = (∑ k < 128, a[r, k] · w[j, k]) + b[j]        (a @ wᵀ + b)

  on the extended reals. The sum runs over the 128 input features in the order of `Fin 128`; the
  product with the transposed weight matrix is written out as the weight read at `(j, k)`.
-/
import Idealize.ShloMosaic.PureOps.Ideal
import Idealize.ShloMosaic.Lib.ValueIdx

noncomputable section

open scoped BigOperators

namespace Cert.Dense

open Idealize.ShloMosaic Idealize.ShloMosaic.ValueIdx

/-- The dense layer over 50000 nodes with 128 input and 128 output features: `a @ wᵀ + b`, entry by entry. -/
def linear (a : FVec Ideal ⟨2, ![50000, 128]⟩ .f32) (w : FVec Ideal ⟨2, ![128, 128]⟩ .f32) (b : FVec Ideal ⟨1, ![128]⟩ .f32) :
    FVec Ideal ⟨2, ![50000, 128]⟩ .f32 :=
  fun i => (∑ k : Fin 128, a (ix2 (i 0) k) * w (ix2 (i 1) k)) + b (ix1 (i 1))

/-- The layer at the entry with coordinates `(r, j)`. -/
theorem linear_apply (a : FVec Ideal ⟨2, ![50000, 128]⟩ .f32) (w : FVec Ideal ⟨2, ![128, 128]⟩ .f32) (b : FVec Ideal ⟨1, ![128]⟩ .f32)
    (r : Fin 50000) (j : Fin 128) :
    linear a w b (ix2 r j) = (∑ k : Fin 128, a (ix2 r k) * w (ix2 j k)) + b (ix1 j) := rfl

end Cert.Dense

end
-- ==== Proof.ReferenceDense.lean ====
/-
  The reference's last four operations as the dense layer. After the aggregation the reference transposes the
  weight matrix, contracts the aggregated features' columns against the transposed matrix's rows, and adds the
  bias broadcast first to a row and then down the 50000 rows. Read at the entry `(r, j)`: the transposed matrix at
  `(k, j)` is the weight matrix at `(j, k)`, the twice-broadcast bias is the bias at `j`, so the entry is
  `(∑ k, agg[r, k] · w[j, k]) + b[j]`, the layer `Cert.Dense.linear` of the reference's own aggregation term.
-/
import proofs.«120122_j39908836115041_1_alg».proof.Proof.ReferenceRead
import proofs.«120122_j39908836115041_1_alg».proof.Proof.Dense

noncomputable section

open scoped BigOperators

namespace Cert.ReferenceIdeal.Layer

open Cert.ReferenceIdeal Cert.ReferenceIdeal.ReadP Idealize.ShloMosaic Idealize.ShloMosaic.ValueIdx Cert.Dense

/-- The reference's result is the dense layer of its aggregated features, the weight matrix and the bias. -/
theorem result_eq_linear (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v56 (F := Ideal) x0 x1 x2 x3 = linear (val_main_v51 (F := Ideal) x0 x1) x2 x3 := by
  funext i
  obtain ⟨r, j, rfl⟩ : ∃ (r : Fin 50000) (j : Fin 128), i = ix2 r j := ⟨i 0, i 1, eq_ix2 i⟩
  rw [val_main_v56_apply, val_main_v53_apply, val_main_v55_apply, val_main_v54_apply, linear_apply]
  have e3 : idx_main_v54 (idx_main_v55 (ix2 r j)) = ix1 j := funext fun a => Fin.ext (by
    match a with
    | ⟨0, _⟩ => rfl)
  rw [e3]
  refine congrArg₂ (· + ·) (Finset.sum_congr rfl fun k _ => ?_) rfl
  rw [val_main_v52_apply]
  have e1 : lidx_main_v53 (ix2 r j) k = ix2 r k := funext fun a => Fin.ext (by
    match a with
    | ⟨0, _⟩ => rfl
    | ⟨1, _⟩ => rfl)
  have e2 : idx_main_v52 (ridx_main_v53 (ix2 r j) k) = ix2 j k := funext fun a => Fin.ext (by
    match a with
    | ⟨0, _⟩ => rfl
    | ⟨1, _⟩ => rfl)
  rw [e1, e2]

end Cert.ReferenceIdeal.Layer

end
-- ==== Proof.BlockProduct.lean ====
/-
  One grid point of the kernel, entry by entry. The body loads a block `a` of 5000 rows of the
  aggregated features, the transposed weight matrix `wt` (input feature by output feature) and the
  bias as a row `brow`; it narrows `a` and `wt` to bf16 (the identity on the extended reals),
  multiplies them into the zero accumulator and adds the bias row to every row. So the value it stores
  at row `p`, column `q` of the block is

      (∑ k < 128, a[p, k] · wt[k, q]) + brow[0, q].
-/
import proofs.«120122_j39908836115041_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices: rows of the block against columns of the transposed weights -/

/-- The left operand is read in the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contracted feature; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted feature … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit started from zero: entry `(p, q)` is the sum over the 128 features of the block's row `p` against the
    transposed weights' column `q`. -/
theorem product_apply (a : FVec Ideal S5000x128 .bf16) (wt : FVec Ideal S128x128 .bf16) (p : Fin 5000) (q : Fin 128) :
    matmul dot_S5000x128_S128x128_S5000x128_1_0_0_1_n_n none a wt (constant (F := Ideal) S5000x128 .f32 0x00000000#32) (ix2 p q)
      = ∑ k : Fin 128, a (ix2 p k) * wt (ix2 k q) := by
  show FloatOps.matmul dot_S5000x128_S128x128_S5000x128_1_0_0_1_n_n none a wt (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the 5000 rows reads the row's column `q`. -/
theorem bias_apply (brow : FVec Ideal S1x128 .f32) (h : S1x128.Broadcasts S5000x128) (p : Fin 5000) (q : Fin 128) :
    broadcastTo S5000x128 brow h (ix2 p q) = brow (ix2 (0 : Fin 1) q) :=
  broadcastTo_apply brow h (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What the body stores at row `p`, column `q` of its block. -/
theorem stored_apply (a : Vec Ideal S5000x128 .f32) (wt : Vec Ideal S128x128 .f32) (brow : Vec Ideal S1x128 .f32) (p : Fin 5000) (q : Fin 128) :
    k0_pay1 (F := Ideal) a wt brow (ix2 p q) = (∑ k : Fin 128, a (ix2 p k) * wt (ix2 k q)) + brow (ix2 (0 : Fin 1) q) := by
  unfold k0_pay1
  rw [shapeCast_self, shapeCast_self, shapeCast_self]
  refine congrArg₂ (· + ·) ((product_apply _ _ p q).trans rfl) (bias_apply _ _ p q)

end Cert.KernelIdeal.Block

end
-- ==== Proof.Entry.lean ====
/-
  What the kernel's one region finds in its three input arrays. Before the region the kernel's program runs the same
  graph aggregation as the reference (degree counts by a scatter-add, their inverse square roots, the per-edge
  weights by two gathers, the gathered node features scaled and scatter-added per target node), transposes the weight
  matrix and reshapes the bias to a row. Each of the three arrays is read back here as the operations' own term
  of the program's arguments; for the aggregated features that term is, operation for operation, the reference's
  aggregation stage, so it is never opened: the two are identified as wholes.
-/
import proofs.«120122_j39908836115041_1_alg».proof.Proof.Gen.KernelIdeal.Frame
import proofs.«120122_j39908836115041_1_alg».proof.Proof.ReferenceRead
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The second input array is the weight matrix transposed. -/
theorem weights_entry (c : Dev nD) :
    (V m c main_v41 : Vec F S128x128 .f32) = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append, List.nil_append]
  after_results

/-- The third input array is the bias as a row. -/
theorem bias_entry (c : Dev nD) :
    (V m c main_v42 : Vec F S1x128 .f32) = shapeCast S1x128 (m ((c : Thread nD τ).loc main_arg3)) shapeCasts_S128_S1x128 := by
  dsimp only [V]
  simp only [hostOps0, hostOps0_1, hostOps0_2, List.flatten_cons, List.flatten_nil, List.append_nil, List.cons_append, List.nil_append]
  after_results
  rfl

set_option maxRecDepth 8192 in
set_option maxHeartbeats 4000000 in
/-- The first input array, the aggregated node features, is the reference's aggregation stage of the node features and the
    edge list: the same operations in the same order on both sides. -/
theorem aggregate_entry (c : Dev nD) :
    (V m c main_v40 : Vec F S50000x128 .f32)
      = Cert.ReferenceIdeal.ReadP.val_main_v51 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rfl

end Cert.KernelIdeal.Entry

end
-- ==== Proof.KernelResult.lean ====
/-
  From the kernel's ten grid points to its whole result array. Point `t` is handed rows
  `5000·t … 5000·t + 4999` of the aggregated features, the whole transposed weight matrix and the whole bias
  row, and writes back the same rows of the result. Reading each block where it lies in its array turns
  the stored entry `(p, q)` of point `t` into the dense layer's entry `(5000·t + p, q)`; the ten row
  blocks tile the 50000 rows (row `r` lies in block `r / 5000`), so the array the run leaves is the dense
  layer of what the region found, which is the reference's aggregation of the node features and the edge list.
-/
import proofs.«120122_j39908836115041_1_alg».proof.Proof.Gen.KernelIdeal.Value
import proofs.«120122_j39908836115041_1_alg».proof.Proof.BlockProduct
import proofs.«120122_j39908836115041_1_alg».proof.Proof.Entry
import proofs.«120122_j39908836115041_1_alg».proof.Proof.Dense
import Idealize.ShloMosaic.Lib.Pipeline.Value
import Idealize.ShloMosaic.Lib.ValueIdx

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block lies at point `t`: the features and the result move down one block of rows per point, the
    weights and the bias stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks read where they lie -/

/-- Row `p` of point `t`'s block of any array of 50000 rows is the array's row `5000·t + p`. -/
theorem rows_block (A : Vec Ideal S50000x128 .f32) (t : Fin cfg0.N) (p : Fin 5000) (k : Fin 128) (r : Fin 50000) (hr : r.val = 5000 * t.val + p.val) :
    (((cfg0.win 0).blk t).view.read (Elt Ideal) A : Vec Ideal S5000x128 .f32) (ix2 p k) = A (ix2 r k) := by
  obtain ⟨e0, e1, -⟩ := block_indices t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- So row `p` of point `t`'s feature block is row `5000·t + p` of the aggregated features. -/
theorem features_block (c : Dev nD) (t : Fin cfg0.N) (p : Fin 5000) (k : Fin 128) (r : Fin 50000) (hr : r.val = 5000 * t.val + p.val) :
    (iblk m c 0 t : Vec Ideal S5000x128 .f32) (ix2 p k) = (V m c main_v40 : Vec Ideal S50000x128 .f32) (ix2 r k) := by
  unfold iblk
  exact rows_block (V m c main_v40) t p k r hr

/-- The weight block is the whole transposed matrix: its entry `(k, q)` is the weight matrix at `(q, k)`. -/
theorem weights_block (c : Dev nD) (t : Fin cfg0.N) (k q : Fin 128) :
    (iblk m c 1 t : Vec Ideal S128x128 .f32) (ix2 k q) = (m ((c : Thread nD τ).loc main_arg2) : Vec Ideal S128x128 .f32) (ix2 q k) := by
  obtain ⟨-, -, e0, e1, -⟩ := block_indices t
  have hpos : ((cfg0.win 1).blk t).view.emb (ix2 k q) = (ix2 k q : S128x128.Idx) := funext fun a => Fin.ext (by
    match a with
    | ⟨0, _⟩ => show win0_1.index t (0 : Fin 2) * 128 + 1 * k.val = k.val; omega
    | ⟨1, _⟩ => show win0_1.index t (1 : Fin 2) * 128 + 1 * q.val = q.val; omega)
  show V m c main_v41 (((cfg0.win 1).blk t).view.emb (ix2 k q)) = _
  rw [hpos, Entry.weights_entry]
  exact transpose_apply [1, 0] _ transposes_S128x128_S128x128_1_0 (ix2 k q) (ix2 q k) (fun b => match b with
    | ⟨0, _⟩ => rfl
    | ⟨1, _⟩ => rfl)

/-- The bias block is the whole bias row: its entry `(0, q)` is the bias at `q`. -/
theorem bias_block (c : Dev nD) (t : Fin cfg0.N) (q : Fin 128) :
    (iblk m c 2 t : Vec Ideal S1x128 .f32) (ix2 (0 : Fin 1) q) = (m ((c : Thread nD τ).loc main_arg3) : Vec Ideal S128 .f32) (ix1 q) := by
  obtain ⟨-, -, -, -, e0, e1, -⟩ := block_indices t
  have hpos : ((cfg0.win 2).blk t).view.emb (ix2 (0 : Fin 1) q) = (ix2 (0 : Fin 1) q : S1x128.Idx) := funext fun a => Fin.ext (by
    match a with
    | ⟨0, _⟩ => show win0_2.index t (0 : Fin 2) * 1 + 1 * 0 = 0; omega
    | ⟨1, _⟩ => show win0_2.index t (1 : Fin 2) * 128 + 1 * q.val = q.val; omega)
  show V m c main_v42 (((cfg0.win 2).blk t).view.emb (ix2 (0 : Fin 1) q)) = _
  rw [hpos, Entry.bias_entry]
  exact shapeCast_apply _ shapeCasts_S128_S1x128 (ix2 (0 : Fin 1) q) (ix1 q)
    (by rewrite [Shape.rowMajor_val_one, Shape.rowMajor_val_two]; show q.val = 0 * 128 + q.val; omega)

/-! ## One point's stored entry is the dense layer's -/

/-- Over any arrays and blocks: when the feature block's row `p` is the features' row `r`, the weight block is the transposed
    matrix and the bias block the bias, the entry stored at `(p, q)` is the dense layer's entry `(r, q)`. -/
theorem stored_eq_linear (A : FVec Ideal ⟨2, ![50000, 128]⟩ .f32) (W : FVec Ideal ⟨2, ![128, 128]⟩ .f32) (B : FVec Ideal ⟨1, ![128]⟩ .f32)
    (a : Vec Ideal S5000x128 .f32) (wt : Vec Ideal S128x128 .f32) (brow : Vec Ideal S1x128 .f32)
    (p : Fin 5000) (q : Fin 128) (r : Fin 50000)
    (ha : ∀ k : Fin 128, a (ix2 p k) = A (ix2 r k)) (hw : ∀ k : Fin 128, wt (ix2 k q) = W (ix2 q k))
    (hb : brow (ix2 (0 : Fin 1) q) = B (ix1 q)) :
    k0_pay1 (F := Ideal) a wt brow (ix2 p q) = linear A W B (ix2 r q) := by
  rw [Block.stored_apply, linear_apply]
  exact congrArg₂ (· + ·) (Finset.sum_congr rfl fun k _ => by rw [ha k, hw k]) hb

/-- What the dense layer is applied to on the kernel's side: the aggregated features as the region finds them, and the
    weight matrix and the bias as launched. -/
abbrev layer (c : Dev nD) : Buf (Elt Ideal) ((c : Thread nD τ).loc main_v43) :=
  linear (V m c main_v40) (m ((c : Thread nD τ).loc main_arg2)) (m ((c : Thread nD τ).loc main_arg3))

/-- Over any block contents `X` and any array `G` of the result's shape: when `X` at `(p, q)` is `G` at `(5000·t + p, q)` for every
    row `p` and column `q`, what point `t` writes back of `X` is block `t` of `G`. -/
theorem written_block (t : Fin cfg0.N) (X : Vec Ideal S5000x128 .f32) (G : Vec Ideal S50000x128 .f32)
    (h : ∀ (p : Fin 5000) (q : Fin 128) (r : Fin 50000), r.val = 5000 * t.val + p.val → X (ix2 p q) = G (ix2 r q)) :
    (cfg0.win 3).cut (grid0.coords t) X = ((cfg0.win 3).blk t).view.read (Elt Ideal) G := by
  obtain ⟨-, -, -, -, -, -, e0, e1⟩ := block_indices t
  have hN : cfg0.N = 10 := N_0
  funext y
  obtain ⟨p, q, rfl⟩ : ∃ (p : Fin 5000) (q : Fin 128), y = ix2 p q := ⟨y 0, y 1, eq_ix2 y⟩
  obtain ⟨r, hr⟩ : ∃ r : Fin 50000, r.val = 5000 * t.val + p.val := ⟨⟨5000 * t.val + p.val, by have := t.isLt; have := p.isLt; omega⟩, rfl⟩
  have hpos : ((cfg0.win 3).blk t).view.emb (ix2 p q) = (ix2 r q : S50000x128.Idx) := funext fun a => Fin.ext (by
    match a with
    | ⟨0, _⟩ => show win0_3.index t (0 : Fin 2) * 5000 + 1 * p.val = r.val; omega
    | ⟨1, _⟩ => show win0_3.index t (1 : Fin 2) * 128 + 1 * q.val = q.val; omega)
  show X (ix2 p q) = G (((cfg0.win 3).blk t).view.emb (ix2 p q))
  rw [hpos]
  exact h p q r hr

/-- WHAT POINT `t` WRITES BACK is block `t` of the dense layer. -/
theorem flushed_eq (c : Dev nD) (t : Fin cfg0.N) :
    (dats m 0 c).flushed 3 t = ((cfg0.win 3).blk t).view.read (Elt Ideal) (layer m c) := by
  rw [Value.flushed3]
  refine written_block t _ _ fun p q r hr => ?_
  unfold out0_3
  rw [View.canon_unit_zero zero_offsets]
  simp only [View.ld_unit_zero (S := S5000x128) zero_offsets, View.ld_unit_zero (S := S128x128) zero_offsets, View.ld_unit_zero (S := S1x128) zero_offsets]
  exact stored_eq_linear (V m c main_v40) (m ((c : Thread nD τ).loc main_arg2)) (m ((c : Thread nD τ).loc main_arg3))
    (iblk m c 0 t) (iblk m c 1 t) (iblk m c 2 t) p q r
    (fun k => features_block m c t p k r hr) (fun k => weights_block m c t k q) (bias_block m c t q)

/-- An index of the result lies in point `t`'s block iff each coordinate lies in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v43).slice (win0_3.rect t)).set ↔ _
  rw [View.set_slice_whole, Rect.mem_set_unit]
  exact Iff.rfl

/-- The ten row blocks tile the result: row `r` lies in block `r / 5000`. -/
theorem covered (i : S50000x128.Idx) : ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e0, e1⟩ := block_indices t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is the dense layer. -/
theorem final (c : Dev nD) : (dats m 0 c).arrAt 3 cfg0.N = layer m c :=
  (dats m 0 c).arrAt_eq_of_cover 3 (layer m c) (fun t _ => flushed_eq m c t) covered

/-- The kernel's run, read: the result array ends at the dense layer of the reference's aggregation stage of the node
    features and the edge list, the weight matrix and the bias; the arguments end unchanged. -/
theorem run : θ_run defs (onTc (τ := τ) (main (F := Ideal))) ⟨m, fun _ => 0, ρ⟩ fun r => ∀ c : Dev nD,
      r.2.mem ((c : Thread nD τ).loc main_v43)
        = linear (Cert.ReferenceIdeal.ReadP.val_main_v51 (F := Ideal) (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (congrArg (fun A => linear A _ _) (Entry.aggregate_entry m c))), (h c).2⟩)
    (Value.run_blocks m ρ)

end Cert.KernelIdeal.Result

end
-- ==== Proof.lean ====
/-
  A graph-convolution layer: `out = segment_sum(x[col] · norm, row) @ Wᵀ + b`, with `norm` the product of the
  inverse square roots of the two endpoints' degrees.

  The kernel's program and the reference run the SAME graph aggregation on the host (degree counts by a
  scatter-add of ones, `deg^(-1/2)` where the degree is positive and 0 elsewhere, two gathers for the per-edge weight,
  the gathered node features scaled and scatter-added per target node): operation for operation the same term of the
  node features and the edge list, so the aggregation is carried as one function and never opened. They differ in the
  dense layer only. The reference contracts the whole 50000×128 aggregate against the transposed weight matrix and
  adds the bias broadcast over the rows. The kernel walks ten blocks of 5000 rows; at each it narrows the block and the
  transposed weights to bf16, multiplies them into a zero accumulator and adds the bias row. On the extended reals a
  change of float format is the identity and both products are the same finite sum over the 128 features in the same
  order, so entry `(r, j)` is `(∑ k, agg[r, k] · W[j, k]) + b[j]` on both sides (`Cert.Dense.linear`): no algebraic
  law is needed beyond reading the two sums at an index, and the finiteness of the inputs is never used.

  Modules: `Dense` (the layer as one function), `BlockProduct` (what one grid point stores, entry by entry),
  `Entry` (what the region finds in its three input arrays; the aggregate identified with the reference's stage),
  `KernelResult` (the ten row blocks tile the result: the kernel's run ends at the layer), `ReferenceDense` (the
  reference's last operations are the layer), and here the five claims.
-/
import proofs.«120122_j39908836115041_1_alg».proof.Defs
import proofs.«120122_j39908836115041_1_alg».proof.Proof.Gen.Kernel
import proofs.«120122_j39908836115041_1_alg».proof.Proof.Gen.Kernel.Skeleton
import proofs.«120122_j39908836115041_1_alg».proof.Proof.Gen.Kernel.Launch
import proofs.«120122_j39908836115041_1_alg».proof.Proof.Gen.Kernel.Points
import proofs.«120122_j39908836115041_1_alg».proof.Proof.Gen.Kernel.Frame
import proofs.«120122_j39908836115041_1_alg».proof.Proof.Gen.KernelIdeal
import proofs.«120122_j39908836115041_1_alg».proof.Proof.Gen.KernelIdeal.Skeleton
import proofs.«120122_j39908836115041_1_alg».proof.Proof.Gen.KernelIdeal.Launch
import proofs.«120122_j39908836115041_1_alg».proof.Proof.Gen.KernelIdeal.Points
import proofs.«120122_j39908836115041_1_alg».proof.Proof.Gen.KernelIdeal.Frame
import proofs.«120122_j39908836115041_1_alg».proof.Proof.Gen.ReferenceIdeal
import proofs.«120122_j39908836115041_1_alg».proof.Proof.Gen.KernelIdeal.Value
import proofs.«120122_j39908836115041_1_alg».proof.Proof.ReferenceRun
import proofs.«120122_j39908836115041_1_alg».proof.Proof.ReferenceRead
import proofs.«120122_j39908836115041_1_alg».proof.Proof.ReferenceDense
import proofs.«120122_j39908836115041_1_alg».proof.Proof.KernelResult
import proofs.«120122_j39908836115041_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end at the dense layer of one and the same aggregation of the node features and the edge list. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, Cert.ReferenceIdeal.Layer.result_eq_linear,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
